-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x4096 : Shape := ⟨3, ![4096, 2, 4096]⟩
abbrev S16384x4096 : Shape := ⟨2, ![16384, 4096]⟩
abbrev S16384 : Shape := ⟨1, ![16384]⟩
abbrev S_ : Shape := ⟨0, ![]⟩

class Facts : Prop where
  bcast_S_S4096x2x4096 : S_.BroadcastsInDim S4096x2x4096 (![] : Fin 0 → Fin S4096x2x4096.rank)
  reducesTo_S4096x2x4096_S_d0_1_2 : S4096x2x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4096x2x4096 .f32) (main_arg1 : FVec F S16384x4096 .f32) (main_arg2 : FVec F S16384 .f32) : IVec S_ 1 :=
  let main_v0 : FVec F S4096x2x4096 .f32 := Host.absf main_arg0
  let main_cst : FVec F S_ .f32 := constant S_ .f32 0x7F800000#32
  let main_v1 : FVec F S4096x2x4096 .f32 := broadcastInDim S4096x2x4096 ![] bcast_S_S4096x2x4096 main_cst
  let main_v2 : IVec S4096x2x4096 1 := cmpf .olt main_v0 main_v1
  let main_c : IVec S_ 1 := constantI S_ 1 1#1
  let main_v3 : IVec S_ 1 := (fun x v => Host.reduce IntOp.andi x v reducesTo_S4096x2x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4096x2x4096 : Shape := ⟨3, ![4096, 2, 4096]⟩
abbrev S16384x4096 : Shape := ⟨2, ![16384, 4096]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S1024x2048 : Shape := ⟨2, ![1024, 2048]⟩
abbrev S1x1024 : Shape := ⟨2, ![1, 1024]⟩
abbrev S1024x1024 : Shape := ⟨2, ![1024, 1024]⟩
abbrev S4096x2x16384 : Shape := ⟨3, ![4096, 2, 16384]⟩

abbrev nBuf : Space → Nat
  | .hbm => 9
  | .vmem => 9
  | .smem => 0
  | _ => 0

abbrev bufTy : (tb : Table) → Fin (tcTables nBuf tb) → BufTy
  | .hbm, ⟨0, _⟩ => ⟨S4096x2x4096, .f32⟩
  | .hbm, ⟨1, _⟩ => ⟨S16384x4096, .f32⟩
  | .hbm, ⟨2, _⟩ => ⟨S16384, .f32⟩
  | .hbm, ⟨3, _⟩ => ⟨S8192x4096, .f32⟩
  | .hbm, ⟨4, _⟩ => ⟨S8192x4096, .bf16⟩
  | .hbm, ⟨5, _⟩ => ⟨S16384x4096, .bf16⟩
  | .hbm, ⟨6, _⟩ => ⟨S1x16384, .f32⟩
  | .hbm, ⟨7, _⟩ => ⟨S8192x16384, .f32⟩
  | .hbm, ⟨8, _⟩ => ⟨S4096x2x16384, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096x2x4096_S8192x4096 : S4096x2x4096.ShapeCasts S8192x4096
  bitsLt_bf16_f32 : FTy.bits .bf16 < FTy.bits .f32
  shapeCasts_S16384_S1x16384 : S16384.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x16384_S4096x2x16384 : S8192x16384.ShapeCasts S4096x2x16384
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x4096.size a
  hwx0_1 : ∀ i : grid0.Coords, EltTy.bits .bf16 = 32 ∨ (Rect.block (s := S16384x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x16384.size a
  hwx0_3 : ∀ i : grid0.Coords, EltTy.bits .f32 = 32 ∨ (Rect.block (s := S8192x16384) S1024x1024.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x2x4096 : Shape := ⟨3, ![4096, 2, 4096]⟩
abbrev S16384x4096 : Shape := ⟨2, ![16384, 4096]⟩
abbrev S16384 : Shape := ⟨1, ![16384]⟩
abbrev S4096x2x16384 : Shape := ⟨3, ![4096, 2, 16384]⟩
abbrev S1x1x16384 : Shape := ⟨3, ![1, 1, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4096x2x4096, .f32⟩
  | .hbm, ⟨1, _⟩ => ⟨S16384x4096, .f32⟩
  | .hbm, ⟨2, _⟩ => ⟨S16384, .f32⟩
  | .hbm, ⟨3, _⟩ => ⟨S4096x2x16384, .f32⟩
  | .hbm, ⟨4, _⟩ => ⟨S1x1x16384, .f32⟩
  | .hbm, ⟨5, _⟩ => ⟨S4096x2x16384, .f32⟩
  | .hbm, ⟨6, _⟩ => ⟨S4096x2x16384, .f32⟩
  | _, _ => ⟨S4096x2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S4096x2x16384_0_1_2 : S1x1x16384.BroadcastsInDim S4096x2x16384 (![0, 1, 2] : Fin 3 → Fin S4096x2x16384.rank)
  dot_S4096x2x4096_S16384x4096_S4096x2x16384_2_1_01_0_n_n_wf : DotDims.WF S4096x2x4096 S16384x4096 S4096x2x16384 [2] [1] [0, 1] [0] [] []

variable [Facts₀]

def dot_S4096x2x4096_S16384x4096_S4096x2x16384_2_1_01_0_n_n : DotDims S4096x2x4096 S16384x4096 S4096x2x16384 where
  lhsContracting := [2]
  rhsContracting := [1]
  lhsNonContracting := [0, 1]
  rhsNonContracting := [0]
  lhsBatch := []
  rhsBatch := []
  wf := dot_S4096x2x4096_S16384x4096_S4096x2x16384_2_1_01_0_n_n_wf

class Facts : Prop extends Facts₀ where

variable [Facts]
-- ==== Proof.Pieces.lean ====
/-
  What one run of the kernel body leaves behind, as values of the blocks it was given (at any float instance).
  At a point that opens a contraction (first case) the accumulator ends at the accumulation step applied to the
  zero tile: the reset is stored first and read back by the step. At a point that closes it (second case) the
  accumulator ends at the accumulation step applied to what the point before left, and the output tile at that
  accumulator plus the bias row.
-/
import proofs.«135719_j44856638439890_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every store and load of the body starts at the origin of its buffer. -/
theorem origin : (![0, 0] : Fin 2 → Nat) = fun _ => 0 := funext fun a => by fin_cases a <;> rfl

/-- First case: the accumulator ends at the accumulation step over the zero tile. -/
theorem acc_opening (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x2048 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x2048) origin]

/-- Second case: the accumulator ends at the accumulation step over what it held. -/
theorem acc_closing (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x2048 .bf16) (x2 : Vec F S1x1024 .f32) (xs : Vec F S1024x1024 .f32) :
    sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero origin]
  simp only [View.readAt_eq_ld, h3.read_unread, h4.read_unread, h7.read_unread, View.ld_unit_zero (S := S1024x2048) origin,
    View.ld_unit_zero (S := S1024x1024) origin]

/-- Second case: the output tile is that accumulator plus the bias row. -/
theorem out_closing (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x2048 .bf16) (x2 : Vec F S1x1024 .f32) (xs : Vec F S1024x1024 .f32) :
    out0_B_3 c i a3 h3 a4 h4 a5 h5 a6 h6 a7 h7 hc0 hc1 x0 x1 x2 xs = k0_pay3 (k0_pay2 x0 x1 xs) x2 := by
  unfold out0_B_3
  rw [View.read_writes_eq_canon _ _ _ (cover0_B_3 c i a3 h3 a4 h4 a5 h5 a6 h6 a7 h7 hc0 hc1 x0 x1 x2 xs)]
  unfold kernelRun0_B
  dsimp only
  sl_unfold_words
  rw [View.canon_unit_zero origin]
  simp only [View.readAt_eq_ld, h3.read_unread, h4.read_unread, h5.read_unread, h7.read_unread,
    View.readCov_unit_zero (S := S1024x1024) _ origin, View.ld_unit_zero (S := S1024x2048) origin,
    View.ld_unit_zero (S := S1024x1024) origin, View.ld_unit_zero (S := S1x1024) origin]

end Cert.KernelIdeal.Pieces

end
-- ==== Proof.Payload.lean ====
/-
  The three values the kernel body stores, read at one position (p, q) of the 1024 x 1024 tile, over the extended
  reals: the reset stores zero; the accumulation stores the accumulator plus the 2048-term inner product of row p
  of the left block with row q of the right block (the right operand is contracted along its second axis, so the
  product is with the transpose); the final store adds the bias row's entry q.
-/
import proofs.«135719_j44856638439890_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- The left operand is read at the output's row; -/
theorem lhs_row (i : S1024x1024.Idx) (r : dot_S1024x2048_S1024x2048_S1024x1024_1_1_0_0_n_n.contr.Idx) :
    (dot_S1024x2048_S1024x2048_S1024x1024_1_1_0_0_n_n.lhsIdx i r 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
/-- and at the contraction position along its second axis. -/
theorem lhs_col (i : S1024x1024.Idx) (r : dot_S1024x2048_S1024x2048_S1024x1024_1_1_0_0_n_n.contr.Idx) :
    (dot_S1024x2048_S1024x2048_S1024x1024_1_1_0_0_n_n.lhsIdx i r 1).val = (r ⟨0, by decide⟩).val :=
  dot_S1024x2048_S1024x2048_S1024x1024_1_1_0_0_n_n.lhsIdx_val_of_single rfl i r
/-- The right operand is read at the output's COLUMN along its first axis; -/
theorem rhs_row (i : S1024x1024.Idx) (r : dot_S1024x2048_S1024x2048_S1024x1024_1_1_0_0_n_n.contr.Idx) :
    (dot_S1024x2048_S1024x2048_S1024x1024_1_1_0_0_n_n.rhsIdx i r 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
/-- and at the contraction position along its second axis. -/
theorem rhs_col (i : S1024x1024.Idx) (r : dot_S1024x2048_S1024x2048_S1024x1024_1_1_0_0_n_n.contr.Idx) :
    (dot_S1024x2048_S1024x2048_S1024x1024_1_1_0_0_n_n.rhsIdx i r 1).val = (r ⟨0, by decide⟩).val :=
  dot_S1024x2048_S1024x2048_S1024x1024_1_1_0_0_n_n.rhsIdx_val_of_single rfl i r

/-- The reset's value: zero everywhere. -/
theorem reset_apply (j : S1024x1024.Idx) : k0_pay1 (F := Ideal) j = 0 := by
  unfold k0_pay1
  simp only [shapeCast_self]
  show Ideal.ofBits .f32 0x00000000#32 = 0
  exact Ideal.ofBits_zero_f32

/-- The product of the two blocks into a zero tile, at (p, q): the inner product of row p with row q. -/
theorem product_apply (a b : FVec Ideal S1024x2048 .bf16) (p q : Fin 1024) :
    matmul (F := Ideal) dot_S1024x2048_S1024x2048_S1024x1024_1_1_0_0_n_n none a b (constant S1024x1024 .f32 0x00000000#32) (ix2 p q)
      = ∑ k : Fin 2048, a (ix2 p k) * b (ix2 q k) := by
  refine (Ideal.matmul_constant_zero_apply dot_S1024x2048_S1024x2048_S1024x1024_1_1_0_0_n_n none a b (ix2 p q)).trans ?_
  rw [← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 p q) ((contrEquiv1 dot_S1024x2048_S1024x2048_S1024x1024_1_1_0_0_n_n 2048 rfl rfl).symm k) = ix2 p k := funext fun ax => Fin.ext (by
    match ax with
    | ⟨0, _⟩ => exact lhs_row _ _
    | ⟨1, _⟩ => exact (lhs_col _ _).trans hk)
  have er : dot_S1024x2048_S1024x2048_S1024x1024_1_1_0_0_n_n.rhsIdx (ix2 p q) ((contrEquiv1 dot_S1024x2048_S1024x2048_S1024x1024_1_1_0_0_n_n 2048 rfl rfl).symm k) = ix2 q k := funext fun ax => Fin.ext (by
    match ax with
    | ⟨0, _⟩ => exact rhs_row _ _
    | ⟨1, _⟩ => exact (rhs_col _ _).trans hk)
  rw [el, er]

/-- The accumulation's value at (p, q): the accumulator there plus the inner product. -/
theorem accumulate_apply (a b : Vec Ideal S1024x2048 .bf16) (acc : Vec Ideal S1024x1024 .f32) (p q : Fin 1024) :
    k0_pay2 (F := Ideal) a b acc (ix2 p q) = acc (ix2 p q) + ∑ k : Fin 2048, a (ix2 p k) * b (ix2 q k) := by
  unfold k0_pay2
  simp only [shapeCast_self]
  rw [addf_apply, product_apply]

/-- The final store's value at (p, q): the accumulator there plus the bias row at q. -/
theorem add_bias_apply (acc : Vec Ideal S1024x1024 .f32) (bias : Vec Ideal S1x1024 .f32) (p q : Fin 1024) :
    k0_pay3 (F := Ideal) acc bias (ix2 p q) = acc (ix2 p q) + bias (ix2 (0 : Fin 1) q) := by
  unfold k0_pay3
  simp only [shapeCast_self]
  rw [addf_apply, broadcastTo_1b_ab_apply]

/-- The tile a flushing point writes, at (p, q): zero, plus the inner product over the first half of the contraction,
    plus the inner product over the second half, plus the bias entry. -/
theorem tile_apply (a0 b0 a1 b1 : Vec Ideal S1024x2048 .bf16) (bias : Vec Ideal S1x1024 .f32) (p q : Fin 1024) :
    k0_pay3 (F := Ideal) (k0_pay2 a1 b1 (k0_pay2 a0 b0 (k0_pay1 (F := Ideal)))) bias (ix2 p q)
      = ((0 + ∑ k : Fin 2048, a0 (ix2 p k) * b0 (ix2 q k)) + ∑ k : Fin 2048, a1 (ix2 p k) * b1 (ix2 q k))
        + bias (ix2 (0 : Fin 1) q) := by
  rw [add_bias_apply, accumulate_apply, accumulate_apply, reset_apply]

end Cert.KernelIdeal.Payload

end
-- ==== Proof.Blocks.lean ====
/-
  The blocks the body is given, as entries of the arrays the region finds, and those arrays as the arguments.

  The grid has 8 x 16 x 2 points; point t has row tile t / 32, feature tile (t / 2) % 16 and contraction half t % 2.
  The left block at t is rows 1024 (t / 32) + p and hidden positions 2048 (t % 2) + k of the flattened input; the
  right block is rows 1024 ((t / 2) % 16) + q and the same hidden positions of the weight; the bias block is the
  entries 1024 ((t / 2) % 16) + q of the bias row. The flattened input is the input reshaped (the change of float
  format is the identity on values), the weight is the weight, the bias row is the bias reshaped.
-/
import proofs.«135719_j44856638439890_1_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The flattened input, the weight and the bias row as the region finds them. -/
abbrev lhsArr (c : Dev nD) : Vec F S8192x4096 .bf16 := V m c main_v1
abbrev rhsArr (c : Dev nD) : Vec F S16384x4096 .bf16 := V m c main_v2
abbrev biasArr (c : Dev nD) : Vec F S1x16384 .f32 := V m c main_v3
/-- Their blocks at point t. -/
abbrev lhsBlk (c : Dev nD) (t : Fin cfg0.N) : Vec F S1024x2048 .bf16 := iblk m c 0 t
abbrev rhsBlk (c : Dev nD) (t : Fin cfg0.N) : Vec F S1024x2048 .bf16 := iblk m c 1 t
abbrev biasBlk (c : Dev nD) (t : Fin cfg0.N) : Vec F S1x1024 .f32 := iblk m c 2 t

/-- The block indices in closed form, decided over the grid. -/
theorem index_closed : ∀ t : Fin cfg0.N,
    win0_0.index t (0 : Fin 2) = t.val / 32 ∧ win0_0.index t (1 : Fin 2) = t.val % 2
    ∧ win0_1.index t (0 : Fin 2) = t.val / 2 % 16 ∧ win0_1.index t (1 : Fin 2) = t.val % 2
    ∧ win0_2.index t (0 : Fin 2) = 0 ∧ win0_2.index t (1 : Fin 2) = t.val / 2 % 16
    ∧ win0_3.index t (0 : Fin 2) = t.val / 32 ∧ win0_3.index t (1 : Fin 2) = t.val / 2 % 16 :=
  (by decide +kernel : ∀ t : Fin grid0.N, _)

/-- The left block's entry (p, k) is the flattened input at row 1024 (t / 32) + p, position 2048 (t % 2) + k. -/
theorem lhsBlk_apply (c : Dev nD) (t : Fin cfg0.N) (p : Fin 1024) (k : Fin 2048) (r : Fin 8192) (h : Fin 4096)
    (hr : r.val = t.val / 32 * 1024 + p.val) (hh : h.val = t.val % 2 * 2048 + k.val) :
    lhsBlk m c t (ix2 p k) = lhsArr m c (ix2 r h) := by
  obtain ⟨e0, e1, -⟩ := index_closed t
  show iblk m c 0 t (ix2 p k) = _
  unfold iblk
  rw [View.read_apply]
  show V m c main_v1 _ = V m c main_v1 _
  congr 1
  funext a
  apply Fin.ext
  match a with
  | ⟨0, _⟩ => show win0_0.index t (0 : Fin 2) * 1024 + 1 * p.val = r.val; omega
  | ⟨1, _⟩ => show win0_0.index t (1 : Fin 2) * 2048 + 1 * k.val = h.val; omega

/-- The right block's entry (q, k) is the weight at row 1024 ((t / 2) % 16) + q, position 2048 (t % 2) + k. -/
theorem rhsBlk_apply (c : Dev nD) (t : Fin cfg0.N) (q : Fin 1024) (k : Fin 2048) (f : Fin 16384) (h : Fin 4096)
    (hf : f.val = t.val / 2 % 16 * 1024 + q.val) (hh : h.val = t.val % 2 * 2048 + k.val) :
    rhsBlk m c t (ix2 q k) = rhsArr m c (ix2 f h) := by
  obtain ⟨-, -, e0, e1, -⟩ := index_closed t
  show iblk m c 1 t (ix2 q k) = _
  unfold iblk
  rw [View.read_apply]
  show V m c main_v2 _ = V m c main_v2 _
  congr 1
  funext a
  apply Fin.ext
  match a with
  | ⟨0, _⟩ => show win0_1.index t (0 : Fin 2) * 1024 + 1 * q.val = f.val; omega
  | ⟨1, _⟩ => show win0_1.index t (1 : Fin 2) * 2048 + 1 * k.val = h.val; omega

/-- The bias block's entry (0, q) is the bias row at 1024 ((t / 2) % 16) + q. -/
theorem biasBlk_apply (c : Dev nD) (t : Fin cfg0.N) (q : Fin 1024) (f : Fin 16384)
    (hf : f.val = t.val / 2 % 16 * 1024 + q.val) :
    biasBlk m c t (ix2 (0 : Fin 1) q) = biasArr m c (ix2 (0 : Fin 1) f) := by
  obtain ⟨-, -, -, -, e0, e1, -⟩ := index_closed t
  show iblk m c 2 t (ix2 (0 : Fin 1) q) = _
  unfold iblk
  rw [View.read_apply]
  show V m c main_v3 _ = V m c main_v3 _
  congr 1
  funext a
  apply Fin.ext
  match a with
  | ⟨0, _⟩ => show win0_2.index t (0 : Fin 2) * 1 + 1 * 0 = 0; omega
  | ⟨1, _⟩ => show win0_2.index t (1 : Fin 2) * 1024 + 1 * q.val = f.val; omega

/-- The flattened input is the input reshaped to two axes, its float format changed. -/
theorem lhsArr_eq (c : Dev nD) :
    lhsArr m c = truncf .bf16 (shapeCast S8192x4096 (m ((c : Thread nD τ).loc main_arg0)) shapeCasts_S4096x2x4096_S8192x4096) bitsLt_bf16_f32 := by
  show StableHlo.after hostOps0 (fun b => m (c, b)) (Proc.devRef .tc main_v1) = _
  after_results
  rfl

/-- The weight the region finds is the weight, its float format changed. -/
theorem rhsArr_eq (c : Dev nD) :
    rhsArr m c = truncf .bf16 (m ((c : Thread nD τ).loc main_arg1)) bitsLt_bf16_f32 := by
  show StableHlo.after hostOps0 (fun b => m (c, b)) (Proc.devRef .tc main_v2) = _
  after_results

/-- The bias row is the bias reshaped to one row. -/
theorem biasArr_eq (c : Dev nD) :
    biasArr m c = shapeCast S1x16384 (m ((c : Thread nD τ).loc main_arg2)) shapeCasts_S16384_S1x16384 := by
  show StableHlo.after hostOps0 (fun b => m (c, b)) (Proc.devRef .tc main_v3) = _
  after_results
  rfl

end Cert.KernelIdeal.Blocks

end
-- ==== Proof.HalfSums.lean ====
/-
  A sum over 4096 contraction positions, taken as the kernel takes it — the first 2048 positions added to zero,
  then the last 2048 added to that — is the sum over all 4096 positions. Over the extended reals addition is
  associative and zero is its unit, so no finiteness is needed.
-/
import Mathlib.Data.EReal.Basic
import Mathlib.Algebra.BigOperators.Fin

namespace Cert.ColumnLinear

open scoped BigOperators

/-- The two half sums, the first started from zero, add up to the whole sum. -/
theorem zero_add_half_add_half (f : Fin 4096 → EReal) :
    (0 + ∑ k : Fin 2048, f ⟨k.val, by omega⟩) + ∑ k : Fin 2048, f ⟨2048 + k.val, by omega⟩ = ∑ h : Fin 4096, f h := by
  rw [zero_add]
  exact (Fin.sum_univ_add (a := 2048) (b := 2048) f).symm

end Cert.ColumnLinear
-- ==== Proof.Spec.lean ====
/-
  The column-parallel linear layer as one function of its three arguments, and the same numbers as the tiled
  kernel produces them.

  `linear x w b` at (s, r, f) is the inner product over the 4096 hidden positions h of x[s, r, h] with w[f, h], plus
  b[f]. `tiled A W B` at (o, f), for the flattened input A[o, h] = x[o / 2, o % 2, h], a weight W and a bias row
  B[0, f], is what the accumulator holds after its two steps plus the bias: zero, plus the inner product over the
  first 2048 hidden positions, plus the inner product over the last 2048. Flattening (s, r) to o = 2 s + r is the
  row-major reshape on both sides, so the tiled array reshaped to three axes is the linear layer
  (`tiled_reshaped`): addition of extended reals is associative with unit zero, and the two half sums make up the
  whole one.
-/
import proofs.«135719_j44856638439890_1_alg».proof.Proof.HalfSums
import Idealize.ShloMosaic.Lib.ValueIdx
import Idealize.ShloMosaic.Lib.ValueLayout
import Idealize.ShloMosaic.Lib.Pipeline.Value

noncomputable section

namespace Cert.ColumnLinear

open Idealize.ShloMosaic Idealize.ShloMosaic.ValueIdx
open scoped BigOperators

abbrev Sx : Shape := ⟨3, ![4096, 2, 4096]⟩
abbrev Sw : Shape := ⟨2, ![16384, 4096]⟩
abbrev Sb : Shape := ⟨1, ![16384]⟩
abbrev Sy : Shape := ⟨3, ![4096, 2, 16384]⟩
abbrev Sa : Shape := ⟨2, ![8192, 4096]⟩
abbrev Sbrow : Shape := ⟨2, ![1, 16384]⟩
abbrev So : Shape := ⟨2, ![8192, 16384]⟩

/-- The linear layer: y[s, r, f] = ∑ₕ x[s, r, h] · w[f, h] + b[f]. -/
def linear (x : Sx.Idx → EReal) (w : Sw.Idx → EReal) (b : Sb.Idx → EReal) : Sy.Idx → EReal :=
  fun i => (∑ h : Fin 4096, x (ix3 (n0 := 4096) (n1 := 2) (n2 := 4096) (i 0) (i 1) h)
      * w (ix2 (n0 := 16384) (n1 := 4096) (i 2) h))
    + b (ix1 (n := 16384) (i 2))

/-- The tiled product: ((0 + first half) + second half) + bias, at row o and feature f. -/
def tiled (A : Sa.Idx → EReal) (W : Sw.Idx → EReal) (B : Sbrow.Idx → EReal) : So.Idx → EReal :=
  fun o => ((0 + ∑ k : Fin 2048, A (ix2 (n0 := 8192) (n1 := 4096) (o 0) ⟨k.val, by omega⟩)
        * W (ix2 (n0 := 16384) (n1 := 4096) (o 1) ⟨k.val, by omega⟩))
      + ∑ k : Fin 2048, A (ix2 (n0 := 8192) (n1 := 4096) (o 0) ⟨2048 + k.val, by omega⟩)
        * W (ix2 (n0 := 16384) (n1 := 4096) (o 1) ⟨2048 + k.val, by omega⟩))
    + B (ix2 (n0 := 1) (n1 := 16384) (0 : Fin 1) (o 1))

/-- The flattened input at row 2 s + r is the input at (s, r). -/
theorem flat_input (x : Sx.Idx → EReal) (hx : Sx.ShapeCasts Sa) (s : Fin 4096) (r : Fin 2) (h : Fin 4096)
    (o : Fin 8192) (ho : o.val = 2 * s.val + r.val) :
    shapeCast Sa x hx (ix2 o h) = x (ix3 s r h) :=
  shapeCast_apply x hx _ _ (by
    rw [Shape.rowMajor_val_three, Shape.rowMajor_val_two]
    show (s.val * 2 + r.val) * 4096 + h.val = o.val * 4096 + h.val
    rw [ho, Nat.mul_comm 2 s.val])

/-- The tiled array over the flattened input and the bias as a row, reshaped to three axes, is the linear layer. -/
theorem tiled_reshaped (x : Sx.Idx → EReal) (w : Sw.Idx → EReal) (b : Sb.Idx → EReal)
    (hx : Sx.ShapeCasts Sa) (hb : Sb.ShapeCasts Sbrow) (hy : So.ShapeCasts Sy) :
    shapeCast Sy (tiled (shapeCast Sa x hx) w (shapeCast Sbrow b hb)) hy = linear x w b := by
  funext i
  obtain ⟨s, r, f, rfl⟩ : ∃ (s : Fin 4096) (r : Fin 2) (f : Fin 16384), i = ix3 s r f := ⟨i 0, i 1, i 2, eq_ix3 i⟩
  have hs : s.val < 4096 := s.isLt
  have hr : r.val < 2 := r.isLt
  let o : Fin 8192 := ⟨2 * s.val + r.val, by omega⟩
  rw [shapeCast_apply _ hy (ix3 s r f) (ix2 o f) (by
    rw [Shape.rowMajor_val_two, Shape.rowMajor_val_three]
    show (2 * s.val + r.val) * 16384 + f.val = (s.val * 2 + r.val) * 16384 + f.val
    rw [Nat.mul_comm 2 s.val])]
  show ((0 + ∑ k : Fin 2048, shapeCast Sa x hx (ix2 o ⟨k.val, _⟩) * w (ix2 f ⟨k.val, _⟩))
      + ∑ k : Fin 2048, shapeCast Sa x hx (ix2 o ⟨2048 + k.val, _⟩) * w (ix2 f ⟨2048 + k.val, _⟩))
    + shapeCast Sbrow b hb (ix2 (0 : Fin 1) f)
    = (∑ h : Fin 4096, x (ix3 s r h) * w (ix2 f h)) + b (ix1 f)
  rw [shapeCast_a_1a_apply b hb (0 : Fin 1) f]
  simp only [flat_input x hx s r _ o rfl]
  rw [zero_add_half_add_half (fun h => x (ix3 s r h) * w (ix2 f h))]

end Cert.ColumnLinear

end
-- ==== Proof.Tiles.lean ====
/-
  The idealized kernel's run, read: the result array ends at the linear layer of the arguments.

  The accumulator is reset at every point with contraction half 0 and the output tile is written at every point
  with contraction half 1, so two consecutive points t - 1, t make one output tile: after the first the accumulator
  is the accumulation step over zero of the blocks at t - 1, after the second the tile is the step over that of the
  blocks at t, plus the bias block. Entry by entry that tile is the tile of `tiled` of the arrays the region finds
  at rows 1024 (t / 32) + p and features 1024 ((t / 2) % 16) + q; the tiles of the odd points cover the product
  array; and the reshape after the region takes it to the linear layer of the arguments (`tiled_reshaped`).
-/
import proofs.«135719_j44856638439890_1_alg».proof.Proof.Pieces
import proofs.«135719_j44856638439890_1_alg».proof.Proof.Payload
import proofs.«135719_j44856638439890_1_alg».proof.Proof.Blocks
import proofs.«135719_j44856638439890_1_alg».proof.Proof.Spec

noncomputable section

open Idealize.ShloMosaic Idealize.ShloMosaic.TcCoe Idealize.SL.Sem
open Idealize.ShloMosaic.Pipeline (Dat)

namespace Cert.KernelIdeal.Tiles

open Cert.KernelIdeal Cert.KernelIdeal.Gen Cert.KernelIdeal.Blocks Cert.ColumnLinear Idealize.ShloMosaic.ValueIdx

section AnyInstance

variable {F : FTy → Type} [FloatOps F]
variable (m : (ℓ : Loc nD τ sig) → Buf (Elt F) ℓ)

/-- The contents after a point depend on the point's number only. -/
theorem outsAt_congr (c : Dev nD) (n n' : ℕ) (h : n < cfg0.N) (h' : n' < cfg0.N) (e : n = n') :
    outsAt0 m c n h = outsAt0 m c n' h' := by
  subst e; rfl

/-- After a point with contraction half 0 the accumulator is the step over zero of that point's blocks. -/
theorem acc_after_opening (c : Dev nD) (t : Fin cfg0.N) (h0 : t.val % 2 = 0) :
    (outsAt0 m c t.val t.isLt).2 = k0_pay2 (lhsBlk m c t) (rhsBlk m c t) (k0_pay1 (F := F)) := by
  have h1 : ¬t.val % 2 = 1 := by omega
  rw [outsAt0_A m c t h0 h1]
  dsimp only
  exact Pieces.acc_opening c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After a point t with contraction half 1 the output tile is the step over the step over zero, of the blocks at
    t - 1 and then at t, plus the bias block at t. -/
theorem out_after_closing (c : Dev nD) (t s : Fin cfg0.N) (h1 : t.val % 2 = 1) (hs : s.val + 1 = t.val) :
    (outsAt0 m c t.val t.isLt).1
      = k0_pay3 (k0_pay2 (lhsBlk m c t) (rhsBlk m c t) (k0_pay2 (lhsBlk m c s) (rhsBlk m c s) (k0_pay1 (F := F)))) (biasBlk m c t) := by
  have h0 : ¬t.val % 2 = 0 := by omega
  rw [outsAt0_B m c t h0 h1]
  dsimp only
  rw [outsAt_congr m c (t.val - 1) s.val _ s.isLt (by omega), acc_after_opening m c s (by omega)]
  exact Pieces.out_closing c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (k0_pay2 (lhsBlk m c s) (rhsBlk m c s) (k0_pay1 (F := F)))

end AnyInstance

section AtIdeal

variable (m : (ℓ : Loc nD τ sig) → Buf (Elt Ideal) ℓ) (ρ : Dev nD → PrngReg)

/-- The product array: `tiled` of the flattened input, the weight and the bias row as the region finds them. -/
abbrev product (c : Dev nD) : S8192x16384.Idx → EReal := tiled (lhsArr m c) (rhsArr m c) (biasArr m c)

/-- The tile two consecutive points make, at an entry j, is the product array at row 1024 (t / 32) + j₀ and
    feature 1024 ((t / 2) % 16) + j₁. -/
theorem tile_eq (c : Dev nD) (t s : Fin cfg0.N) (h1 : t.val % 2 = 1) (hs : s.val + 1 = t.val) (j : S1024x1024.Idx)
    (o : S8192x16384.Idx) (ho0 : (o 0).val = t.val / 32 * 1024 + (j 0).val) (ho1 : (o 1).val = t.val / 2 % 16 * 1024 + (j 1).val) :
    k0_pay3 (F := Ideal) (k0_pay2 (lhsBlk m c t) (rhsBlk m c t) (k0_pay2 (lhsBlk m c s) (rhsBlk m c s) (k0_pay1 (F := Ideal)))) (biasBlk m c t) j
      = product m c o := by
  obtain ⟨p, q, rfl⟩ : ∃ (p q : Fin 1024), j = ix2 p q := ⟨j 0, j 1, eq_ix2 j⟩
  have ho0' : (o 0).val = t.val / 32 * 1024 + p.val := ho0
  have ho1' : (o 1).val = t.val / 2 % 16 * 1024 + q.val := ho1
  rw [Payload.tile_apply]
  have eA0 : ∀ k : Fin 2048, lhsBlk m c s (ix2 p k) = lhsArr m c (ix2 (n0 := 8192) (n1 := 4096) (o 0) ⟨k.val, by omega⟩) :=
    fun k => lhsBlk_apply m c s p k (o 0) ⟨k.val, by omega⟩ (by omega) (by show k.val = s.val % 2 * 2048 + k.val; omega)
  have eB0 : ∀ k : Fin 2048, rhsBlk m c s (ix2 q k) = rhsArr m c (ix2 (n0 := 16384) (n1 := 4096) (o 1) ⟨k.val, by omega⟩) :=
    fun k => rhsBlk_apply m c s q k (o 1) ⟨k.val, by omega⟩ (by omega) (by show k.val = s.val % 2 * 2048 + k.val; omega)
  have eA1 : ∀ k : Fin 2048, lhsBlk m c t (ix2 p k) = lhsArr m c (ix2 (n0 := 8192) (n1 := 4096) (o 0) ⟨2048 + k.val, by omega⟩) :=
    fun k => lhsBlk_apply m c t p k (o 0) ⟨2048 + k.val, by omega⟩ (by omega) (by show 2048 + k.val = t.val % 2 * 2048 + k.val; omega)
  have eB1 : ∀ k : Fin 2048, rhsBlk m c t (ix2 q k) = rhsArr m c (ix2 (n0 := 16384) (n1 := 4096) (o 1) ⟨2048 + k.val, by omega⟩) :=
    fun k => rhsBlk_apply m c t q k (o 1) ⟨2048 + k.val, by omega⟩ (by omega) (by show 2048 + k.val = t.val % 2 * 2048 + k.val; omega)
  have eC : biasBlk m c t (ix2 (0 : Fin 1) q) = biasArr m c (ix2 (n0 := 1) (n1 := 16384) (0 : Fin 1) (o 1)) :=
    biasBlk_apply m c t q (o 1) (by omega)
  simp only [eA0, eB0, eA1, eB1, eC]
  rfl

/-- What a flushing point writes back is its block of the product array. -/
theorem flushed_eq (c : Dev nD) (t : Fin cfg0.N) (hf : (cfg0.win 3).flush t = true) :
    (dats m 0 c).flushed 3 t = ((cfg0.win 3).blk t).view.read (Elt Ideal) (product m c) := by
  have h1 : t.val % 2 = 1 := (flush0_3 t).mp hf
  obtain ⟨-, -, -, -, -, -, e0, e1⟩ := index_closed t
  let s : Fin cfg0.N := ⟨t.val - 1, lt_of_le_of_lt (Nat.sub_le _ _) t.isLt⟩
  have hs : s.val + 1 = t.val := by show t.val - 1 + 1 = t.val; omega
  show (cfg0.win 3).cut (grid0.coords t) ((dats m 0 c).after 3 t) = _
  rw [after0_3, out_after_closing m c t s h1 hs]
  funext j
  rw [View.read_apply]
  exact tile_eq m c t s h1 hs _ _
    (by show win0_3.index t (0 : Fin 2) * 1024 + 1 * (j 0).val = t.val / 32 * 1024 + (j 0).val; omega)
    (by show win0_3.index t (1 : Fin 2) * 1024 + 1 * (j 1).val = t.val / 2 % 16 * 1024 + (j 1).val; omega)

/-- Every entry of the product array lies in the block of a flushing point: row tile o₀ / 1024, feature tile
    o₁ / 1024, contraction half 1. -/
theorem covered (o : S8192x16384.Idx) :
    ∃ t : Fin cfg0.N, (cfg0.win 3).flush t = true ∧ o ∈ ((cfg0.win 3).blk t).view.set := by
  have h0 : (o 0).val < 8192 := (o 0).isLt
  have h1 : (o 1).val < 16384 := (o 1).isLt
  have hN : cfg0.N = 256 := N_0
  let t : Fin cfg0.N := ⟨(o 0).val / 1024 * 32 + (o 1).val / 1024 * 2 + 1, by rw [hN]; omega⟩
  have ht : t.val = (o 0).val / 1024 * 32 + (o 1).val / 1024 * 2 + 1 := rfl
  obtain ⟨-, -, -, -, -, -, e0, e1⟩ := index_closed t
  refine ⟨t, (flush0_3 t).mpr (by omega), ?_⟩
  show o ∈ ((View.whole main_v4).slice (win0_3.rect t)).set
  rw [View.set_slice_whole, Rect.mem_set_unit]
  intro a
  match a with
  | ⟨0, _⟩ =>
    show win0_3.index t (0 : Fin 2) * 1024 ≤ (o 0).val ∧ (o 0).val < win0_3.index t (0 : Fin 2) * 1024 + 1024
    omega
  | ⟨1, _⟩ =>
    show win0_3.index t (1 : Fin 2) * 1024 ≤ (o 1).val ∧ (o 1).val < win0_3.index t (1 : Fin 2) * 1024 + 1024
    omega

/-- So the product array ends holding `tiled` of the arrays the region finds. -/
theorem product_array (c : Dev nD) : (dats m 0 c).arrAt 3 cfg0.N = product m c :=
  (dats m 0 c).arrAt_eq_of_cover 3 (product m c) (flushed_eq m c) covered

/-- The result: the linear layer of the three arguments. -/
abbrev result (c : Dev nD) : S4096x2x16384.Idx → EReal :=
  linear (m ((c : Thread nD τ).loc main_arg0)) (m ((c : Thread nD τ).loc main_arg1)) (m ((c : Thread nD τ).loc main_arg2))

/-- The reshape after the region leaves the result array at the linear layer. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have eP : Pipeline.withArrays spec0 c (V0 m c) (fun w => (dats m 0 c).arrAt w cfg0.N) (Proc.devRef .tc main_v4) = product m c :=
    (Pipeline.withArrays_arr spec0 launch0.win.arr_inj c _ _ 3).trans (product_array m c)
  have eA : lhsArr m c = shapeCast Sa (m ((c : Thread nD τ).loc main_arg0)) shapeCasts_S4096x2x4096_S8192x4096 :=
    (lhsArr_eq m c).trans rfl
  have eW : rhsArr m c = m ((c : Thread nD τ).loc main_arg1) := (rhsArr_eq m c).trans rfl
  have eB : biasArr m c = shapeCast Sbrow (m ((c : Thread nD τ).loc main_arg2)) shapeCasts_S16384_S1x16384 := biasArr_eq m c
  show shapeCast S4096x2x16384 (Pipeline.withArrays spec0 c (V0 m c) (fun w => (dats m 0 c).arrAt w cfg0.N) (Proc.devRef .tc main_v4))
    shapeCasts_S8192x16384_S4096x2x16384 = _
  rw [eP]
  show shapeCast Sy (tiled (lhsArr m c) (rhsArr m c) (biasArr m c)) shapeCasts_S8192x16384_S4096x2x16384 = _
  rw [eA, eW, eB]
  exact tiled_reshaped _ _ _ _ _ _

/-- The run, read: every weakly fair execution ends with the result array at the linear layer of the arguments,
    which are unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v5 (Pipeline.mem_restRefs_of main_v5 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end AtIdeal

end Cert.KernelIdeal.Tiles

end
-- ==== Proof.Reference.lean ====
/-
  The reference's result is the linear layer: its contraction of the input's last axis with the weight's last axis
  is, entry by entry, the sum over the 4096 hidden positions of x[s, r, h] · w[f, h], and the bias broadcast along
  the first two axes adds b[f].
-/
import proofs.«135719_j44856638439890_1_alg».proof.Defs
import proofs.«135719_j44856638439890_1_alg».proof.Proof.Gen.ReferenceIdeal.Run
import proofs.«135719_j44856638439890_1_alg».proof.Proof.Gen.ReferenceIdeal.Read
import proofs.«135719_j44856638439890_1_alg».proof.Proof.Spec

noncomputable section

open Idealize.ShloMosaic Idealize.ShloMosaic.TcCoe Idealize.SL.Sem

namespace Cert.ReferenceIdeal.RefValue

open Cert.ReferenceIdeal Cert.ReferenceIdeal.Gen Cert.ReferenceIdeal.Read Cert.ColumnLinear Idealize.ShloMosaic.ValueIdx

/-- The reference's last stage, as a function of the three arguments, is the linear layer. -/
theorem reference_eq (x0 : S4096x2x4096.Idx → EReal) (x1 : S16384x4096.Idx → EReal) (x2 : S16384.Idx → EReal) :
    val_main_v3 (F := Ideal) x0 x1 x2 = linear x0 x1 x2 := by
  funext i
  rw [val_main_v3_apply, val_main_v0_apply, val_main_v2_apply, val_main_v1_apply]
  have el : ∀ k : Fin 4096, lidx_main_v0 i k = ix3 (i 0) (i 1) k := fun k => funext fun a => Fin.ext (by
    match a with
    | ⟨0, _⟩ => rfl
    | ⟨1, _⟩ => rfl
    | ⟨2, _⟩ => rfl)
  have er : ∀ k : Fin 4096, ridx_main_v0 i k = ix2 (i 2) k := fun k => funext fun a => Fin.ext (by
    match a with
    | ⟨0, _⟩ => rfl
    | ⟨1, _⟩ => rfl)
  have eb : idx_main_v1 (idx_main_v2 i) = ix1 (i 2) := funext fun a => Fin.ext (by
    match a with
    | ⟨0, _⟩ => rfl)
  simp only [el, er, eb]
  rfl

end Cert.ReferenceIdeal.RefValue

end
-- ==== Proof.lean ====
/-
  The certificate of a column-parallel linear layer computed tile by tile.

  The kernel flattens the input's first two axes, and for each 1024 x 1024 tile of the product accumulates, over
  the two halves of the 4096 hidden positions, the inner products of the input rows with the weight rows, starting
  from zero, then adds the bias and reshapes back to three axes. The reference contracts the input with the weight in
  one step and adds the broadcast bias. Over the extended reals both are y[s, r, f] = ∑ₕ x[s, r, h] · w[f, h] + b[f]:
  the changes of float format are the identity, and ((0 + first half) + second half) is the whole sum because addition
  is associative with unit zero — no finiteness of the inputs is used. The ideal pass rewrote nothing, so the
  idealization claim is trivial; the three frames are the generated ones (the reference's is its run with the result
  dropped).
-/
import proofs.«135719_j44856638439890_1_alg».proof.Defs
import proofs.«135719_j44856638439890_1_alg».proof.Proof.Gen.Kernel
import proofs.«135719_j44856638439890_1_alg».proof.Proof.Gen.Kernel.Skeleton
import proofs.«135719_j44856638439890_1_alg».proof.Proof.Gen.Kernel.Launch
import proofs.«135719_j44856638439890_1_alg».proof.Proof.Gen.Kernel.Points
import proofs.«135719_j44856638439890_1_alg».proof.Proof.Gen.Kernel.Frame
import proofs.«135719_j44856638439890_1_alg».proof.Proof.Gen.KernelIdeal
import proofs.«135719_j44856638439890_1_alg».proof.Proof.Gen.KernelIdeal.Skeleton
import proofs.«135719_j44856638439890_1_alg».proof.Proof.Gen.KernelIdeal.Launch
import proofs.«135719_j44856638439890_1_alg».proof.Proof.Gen.KernelIdeal.Points
import proofs.«135719_j44856638439890_1_alg».proof.Proof.Gen.KernelIdeal.Frame
import proofs.«135719_j44856638439890_1_alg».proof.Proof.Gen.ReferenceIdeal
import proofs.«135719_j44856638439890_1_alg».proof.Proof.Gen.Pre_finite_inputs
import proofs.«135719_j44856638439890_1_alg».proof.Proof.Tiles
import proofs.«135719_j44856638439890_1_alg».proof.Proof.Reference
import Idealize.ShloMosaic.Adequacy
import Idealize.ShloMosaic.Init

noncomputable section

namespace Cert.Proof

open Idealize.ShloMosaic Idealize.SL.Sem

/-- Both idealized programs end with the linear layer of arguments that agree. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
